-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024 .f32) (main_arg13 : FVec F S1024 .f32) (main_arg14 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_v63 main_v67

def fn_part2 {F : FTy → Type} [FloatOps F] (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x4096 : Shape := ⟨2, ![1, 4096]⟩
abbrev S128x1024 : Shape := ⟨2, ![128, 1024]⟩
abbrev S128x4096 : Shape := ⟨2, ![128, 4096]⟩

abbrev nBuf : Space → Nat
  | .hbm => 22
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x4096, .f32⟩
  | .hbm, ⟨16, _⟩ => ⟨S1024x4096, .bf16⟩
  | .hbm, ⟨17, _⟩ => ⟨S1024x4096, .f32⟩
  | .hbm, ⟨18, _⟩ => ⟨S1024x4096, .bf16⟩
  | .hbm, ⟨19, _⟩ => ⟨S4096, .f32⟩
  | .hbm, ⟨20, _⟩ => ⟨S1x4096, .f32⟩
  | .hbm, ⟨21, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S128x1024, .f32⟩
  | .local _ .vmem, ⟨10, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S4096x1024.size a
  hwx0_6 : ∀ i : grid0.Coords, EltTy.bits .f32 = 32 ∨ (Rect.block (s := S4096x1024) S128x1024.size (cc0_transform_6 i) (hinb0_6 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S128x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x4096, .f32⟩
  | .hbm, ⟨16, _⟩ => ⟨S1024x4096, .f32⟩
  | .hbm, ⟨17, _⟩ => ⟨S4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  bcast_S_S4096x1024 : S_.BroadcastsInDim S4096x1024 (![] : Fin 0 → Fin S4096x1024.rank)
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KIHost.lean ====
/-
  The frame run of the fused LSTM-cell program up to its region, at any float instance.

  @main first builds, on the host, the three operands the kernel shares between all grid points: the
  1024 x 4096 matrix W = [W_f | W_i | W_c | W_o] (a concatenation along the columns, then a change of
  float format), the matrix U = [U_f | U_i | U_c | U_o] likewise, and the row b = [b_f, b_i, b_c, b_o]
  reshaped to 1 x 4096. None of these host operations writes an argument array, so the region finds
  every argument as launched.

  The one region runs over 32 grid points. Point t is handed rows 128 t .. 128 t + 127 of x, h and c
  (windows 0, 1, 2), the whole of W, U and b (windows 3, 4, 5: their block index never moves), and a
  128 x 1024 output buffer (window 6). An input window's staging buffer holds, at every point, the
  block of its array at that point's index, fetched there or not.

  The pipeline library's frame theorem ends every run with each staged array at what its write-backs
  make of it and every other buffer as the region found it; read at the fifteen argument arrays, that
  is the frame claim.
-/
import proofs.«125916_j33526514712649_1_alg».proof.Proof.Gen.KernelIdeal.Launch
import proofs.«125916_j33526514712649_1_alg».proof.Proof.Gen.KernelIdeal.Skeleton
import proofs.«125916_j33526514712649_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- What core `c`'s buffers hold when the region is entered: the launch contents after the six host
    operations (two column concatenations each followed by a change of format, a concatenation of the
    biases, a reshape). -/
abbrev V (c : Dev nD) (b : Ref sig .tc) : Buf (Elt F) ((c : Thread nD τ).loc b) :=
  StableHlo.after (List.flatten [hostOps0]) (fun b => m (c, b)) b

/-- No host operation allocates a buffer. -/
theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- Each of the six host operations writes only its own result buffer, `main_v0` … `main_v5` in order. A
    buffer that is none of these six is found by the region as launched. -/
theorem V_of_unwritten (c : Dev nD) (b : Ref sig .tc)
    (hb : b ≠ main_v0 ∧ b ≠ main_v1 ∧ b ≠ main_v2 ∧ b ≠ main_v3 ∧ b ≠ main_v4 ∧ b ≠ main_v5) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    obtain ⟨h0, h1, h2, h3, h4, h5⟩ := hb
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether it was fetched there
    or not (where it was not, the block index has not moved since the last fetch) — for any proof data
    whose array is the region-entry contents and whose body leaves the block in place. Windows 0, 1, 2
    (the rows of x, h, c) are fetched at every point; windows 3, 4, 5 (W, U, b) at the first only. -/

theorem before_x {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_h {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_c {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_W {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_U {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_b {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A staged input array ends as launched: its window only reads it. -/
theorem staged_kept (dats : (p : Fin 1) → (c : Dev nD) → Dat τ (Elt F) Unit ℕ (UR sig nD τ) ℕ (cfgs p) c)
    (hA : ∀ c w, (dats 0 c).A w = V m c (Pipeline.arrRef spec0 w)) (c : Dev nD) (w : Fin cfg0.W)
    (hin : (cfg0.win w).isOut = false)
    (hb : Pipeline.arrRef spec0 w ≠ main_v0 ∧ Pipeline.arrRef spec0 w ≠ main_v1 ∧ Pipeline.arrRef spec0 w ≠ main_v2
      ∧ Pipeline.arrRef spec0 w ≠ main_v3 ∧ Pipeline.arrRef spec0 w ≠ main_v4 ∧ Pipeline.arrRef spec0 w ≠ main_v5) :
    (dats 0 c).arrAt w cfg0.N = m ((c : Thread nD τ).loc (Pipeline.arrRef spec0 w)) :=
  ((dats 0 c).arrAt_in w hin _).trans ((hA c w).trans (V_of_unwritten m c _ hb))

/-- An argument no window stages ends as the region found it, which is as launched. -/
theorem unstaged_kept {r : PUnit × MemSt nD τ sig (Elt F)}
    (dats : (p : Fin 1) → (c : Dev nD) → Dat τ (Elt F) Unit ℕ (UR sig nD τ) ℕ (cfgs p) c)
    (h : Pipeline.FramePost cfgs dats 0 (V m) r) (c : Dev nD) (b : Ref sig .tc)
    (hrest : b ∈ Pipeline.restRefs sig (cfgs 0).spec)
    (hb : b ≠ main_v0 ∧ b ≠ main_v1 ∧ b ≠ main_v2 ∧ b ≠ main_v3 ∧ b ≠ main_v4 ∧ b ≠ main_v5) :
    r.2.mem ((c.tc : Thread nD τ).loc b) = m ((c : Thread nD τ).loc b) :=
  ((h c).2 b hrest).trans (V_of_unwritten m c b hb)

/-- The run's post read at the fifteen argument arrays: x, h and c are staged by windows 0, 1 and 2, which
    only read them; the twelve weight and bias arguments are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    have rest := fun (b : Ref sig .tc) (hrest : b ∈ Pipeline.restRefs sig (cfgs 0).spec)
        (hb : b ≠ main_v0 ∧ b ≠ main_v1 ∧ b ≠ main_v2 ∧ b ≠ main_v3 ∧ b ≠ main_v4 ∧ b ≠ main_v5) =>
      unstaged_kept m dats h c b hrest hb
    ⟨((h c).1 0).trans (staged_kept m dats hA c 0 rfl (by decide)),
     ((h c).1 1).trans (staged_kept m dats hA c 1 rfl (by decide)),
     ((h c).1 2).trans (staged_kept m dats hA c 2 rfl (by decide)),
     rest main_arg3 (Pipeline.mem_restRefs_of main_arg3 (by decide) (by decide)) (by decide),
     rest main_arg4 (Pipeline.mem_restRefs_of main_arg4 (by decide) (by decide)) (by decide),
     rest main_arg5 (Pipeline.mem_restRefs_of main_arg5 (by decide) (by decide)) (by decide),
     rest main_arg6 (Pipeline.mem_restRefs_of main_arg6 (by decide) (by decide)) (by decide),
     rest main_arg7 (Pipeline.mem_restRefs_of main_arg7 (by decide) (by decide)) (by decide),
     rest main_arg8 (Pipeline.mem_restRefs_of main_arg8 (by decide) (by decide)) (by decide),
     rest main_arg9 (Pipeline.mem_restRefs_of main_arg9 (by decide) (by decide)) (by decide),
     rest main_arg10 (Pipeline.mem_restRefs_of main_arg10 (by decide) (by decide)) (by decide),
     rest main_arg11 (Pipeline.mem_restRefs_of main_arg11 (by decide) (by decide)) (by decide),
     rest main_arg12 (Pipeline.mem_restRefs_of main_arg12 (by decide) (by decide)) (by decide),
     rest main_arg13 (Pipeline.mem_restRefs_of main_arg13 (by decide) (by decide)) (by decide),
     rest main_arg14 (Pipeline.mem_restRefs_of main_arg14 (by decide) (by decide)) (by decide)⟩) h

end Cert.KernelIdeal.Fr

end
-- ==== Proof.KIBody.lean ====
/-
  One grid point of the fused LSTM-cell kernel, at any float instance.

  The body loads the whole of six staging buffers — a 128 x 1024 block of x, of h and of c, the
  1024 x 4096 matrices W and U, and the 1 x 4096 row b — computes one pure function of the six values
  (two matrix products into zero accumulators, their sum, the bias added to every row, the four
  1024-column gate slices through the logistic function and the hyperbolic tangent, the cell update
  and the output gate), and stores the result over the whole 128 x 1024 output buffer. It also loads
  the output buffer before storing into it and uses nothing of what it read.

  So whatever the output buffer held, after the body it holds that function of the six inputs, and
  each input buffer holds what it held.
-/
import proofs.«125916_j33526514712649_1_alg».proof.Proof.Gen.KernelIdeal.Launch
import proofs.«125916_j33526514712649_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The body's accesses: each is the whole of its buffer -/

abbrev wholeBlk : Rect S128x1024 := Rect.unit (s := S128x1024) ![0, 0] S128x1024.size inb_S128x1024_S128x1024_0_0
abbrev wholeMat : Rect S1024x4096 := Rect.unit (s := S1024x4096) ![0, 0] S1024x4096.size inb_S1024x4096_S1024x4096_0_0
abbrev wholeRow : Rect S1x4096 := Rect.unit (s := S1x4096) ![0, 0] S1x4096.size inb_S1x4096_S1x4096_0_0

/-! ## What the body leaves in the output buffer -/

/-- The output buffer after the body, from the six input buffers' contents: its one store, of the body's
    pure function of the six loads, read back as a whole array. -/
def outBlk (x h cc : Vec F S128x1024 .f32) (W U : Vec F S1024x4096 .bf16) (b : Vec F S1x4096 .f32) : Vec F S128x1024 .f32 :=
  View.canon [⟨wholeBlk, k0_pay1 (View.ld x wholeBlk) (View.ld h wholeBlk) (View.ld W wholeMat) (View.ld U wholeMat) (View.ld b wholeRow) (View.ld cc wholeBlk)⟩]

/-- The one store covers the buffer. -/
theorem outBlk_cover (p0 : Vec F S128x1024 .f32) (y : S128x1024.Idx) :
    ∃ pc ∈ ([⟨wholeBlk, p0⟩] : List (View.Piece (Elt F) S128x1024 .f32)), y ∈ pc.1.set :=
  View.cover_of_tiled [⟨wholeBlk, p0⟩] S128x1024.size (by rfl) y

/-! ## The body's triple -/

set_option maxHeartbeats 1000000 in
/-- The body on whole staging memrefs — the six inputs' at contents `x h cc W U b`, the output's at
    anything — runs to a continuation that holds the inputs' as they were and the output's at `outBlk`
    of them. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole)
    (x h cc : Vec F S128x1024 .f32) (W U : Vec F S1024x4096 .bf16) (b : Vec F S1x4096 .f32) (K : PUnit → sProp 𝕄) :
    iprop(owns (c : Thread nD τ) arg1 fullShare x ∗ owns (c : Thread nD τ) arg2 fullShare h ∗ owns (c : Thread nD τ) arg3 fullShare cc
        ∗ owns (c : Thread nD τ) arg4 fullShare W ∗ owns (c : Thread nD τ) arg5 fullShare U ∗ owns (c : Thread nD τ) arg6 fullShare b
        ∗ (∃ d, owns (c : Thread nD τ) arg7 fullShare d)
        ∗ (iprop(owns (c : Thread nD τ) arg1 fullShare x ∗ owns (c : Thread nD τ) arg2 fullShare h ∗ owns (c : Thread nD τ) arg3 fullShare cc
            ∗ owns (c : Thread nD τ) arg4 fullShare W ∗ owns (c : Thread nD τ) arg5 fullShare U ∗ owns (c : Thread nD τ) arg6 fullShare b
            ∗ owns (c : Thread nD τ) arg7 fullShare (outBlk x h cc W U b)) -∗ K ⟨⟩))
      ⊢ wp frame (wpE (defs₀ (F := F)) Variants.none c none) E
          (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (outBlk_cover _)

end Cert.KernelIdeal.Fr

end
-- ==== Proof.KIRun.lean ====
/-
  The run of the fused LSTM-cell program, at any float instance.

  The proof data of the one pipeline: the arrays are what the region finds; after the body at point t
  each of the six input buffers holds its block at t, and the output buffer holds the body's function
  of those six blocks. With the body's triple at every point, the pipeline library's frame theorem
  gives the run: every weakly fair execution terminates without a fault, the output array ends at what
  the 32 write-backs make of it, and every argument array ends as launched.
-/
import proofs.«125916_j33526514712649_1_alg».proof.Proof.KIHost
import proofs.«125916_j33526514712649_1_alg».proof.Proof.KIBody

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- What the output buffer holds after the body at point `t`: the body's function of the six blocks there. -/
def outAt (c : Dev nD) (t : Fin cfg0.N) : Vec F S128x1024 .f32 :=
  outBlk (iblk m c 0 t) (iblk m c 1 t) (iblk m c 2 t) (iblk m c 3 t) (iblk m c 4 t) (iblk m c 5 t)

/-- The proof data on core `c`: arrays as the region finds them; after the body each input's buffer at its
    block and the output's at `outAt`; the invariant the scoped rest and the generator register, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_h (c : Dev nD) (t : Fin cfg0.N) : (dats m 0 c).after 1 t = iblk m c 1 t := by dsimp only [dats]
theorem after_c (c : Dev nD) (t : Fin cfg0.N) : (dats m 0 c).after 2 t = iblk m c 2 t := by dsimp only [dats]
theorem after_W (c : Dev nD) (t : Fin cfg0.N) : (dats m 0 c).after 3 t = iblk m c 3 t := by dsimp only [dats]
theorem after_U (c : Dev nD) (t : Fin cfg0.N) : (dats m 0 c).after 4 t = iblk m c 4 t := by dsimp only [dats]
theorem after_b (c : Dev nD) (t : Fin cfg0.N) : (dats m 0 c).after 5 t = iblk m c 5 t := by dsimp only [dats]
theorem after_out (c : Dev nD) (t : Fin cfg0.N) : (dats m 0 c).after 6 t = outAt m c t := by dsimp only [dats]

theorem found_x (c : Dev nD) (t : Fin cfg0.N) (d) : (dats m 0 c).before 0 t d = iblk m c 0 t :=
  before_x m (dats m 0 c) (A_eq m c 0) (after_x m c) t d
theorem found_h (c : Dev nD) (t : Fin cfg0.N) (d) : (dats m 0 c).before 1 t d = iblk m c 1 t :=
  before_h m (dats m 0 c) (A_eq m c 1) (after_h m c) t d
theorem found_c (c : Dev nD) (t : Fin cfg0.N) (d) : (dats m 0 c).before 2 t d = iblk m c 2 t :=
  before_c m (dats m 0 c) (A_eq m c 2) (after_c m c) t d
theorem found_W (c : Dev nD) (t : Fin cfg0.N) (d) : (dats m 0 c).before 3 t d = iblk m c 3 t :=
  before_W m (dats m 0 c) (A_eq m c 3) (after_W m c) t d
theorem found_U (c : Dev nD) (t : Fin cfg0.N) (d) : (dats m 0 c).before 4 t d = iblk m c 4 t :=
  before_U m (dats m 0 c) (A_eq m c 4) (after_U m c) t d
theorem found_b (c : Dev nD) (t : Fin cfg0.N) (d) : (dats m 0 c).before 5 t d = iblk m c 5 t :=
  before_b m (dats m 0 c) (A_eq m c 5) (after_b m c) t d

/-! ## The body obligation, at a generic point -/

/-- What the body is called with at point `t`, the seven windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; the invariant
    and the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_x, found_h, found_c, found_W, found_U, found_b]
  rw [show (dats m 0 c).Φ t.succ = (dats m 0 c).Φ t.castSucc from rfl,
    show (dats m 0 c).owesAt () t.succ = (dats m 0 c).owesAt () t.castSucc from rfl,
    after_x, after_h, after_c, after_W, after_U, after_b, after_out]
  unfold outAt
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state
    has every staged array at what the library computes from the proof data and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Fr

end
-- ==== Proof.LstmSpec.lean ====
/-
  The LSTM cell, as one function of its arguments on the extended reals.

  For a batch row r and a hidden column q, with W and U the 1024 x 4096 matrices whose four blocks of
  1024 columns belong to the forget, input, candidate and output gates, and b the bias row of length 4096,
  the pre-activation of gate column j is

      z(r, j) = (sum_k x(r, k) W(k, j) + sum_k h(r, k) U(k, j)) + b(j),

  and the new hidden state is

      out(r, q) = sigma(z(r, 3072 + q)) * tanh( sigma(z(r, q)) * c(r, q) + sigma(z(r, 1024 + q)) * tanh(z(r, 2048 + q)) ),

  where sigma is the logistic function 1 / (1 + e^(-z)). The number of batch rows is left general: the
  kernel computes this cell on a block of 128 rows at a time, the reference on all 4096 at once, and a
  row of a block is a row of the whole array.
-/
import Idealize.ShloMosaic.PureOps.Ideal.Laws
import Idealize.ShloMosaic.Lib.ValueIdx

noncomputable section

namespace Cert.Lstm

open Idealize.ShloMosaic Idealize.ShloMosaic.ValueIdx

/-- Column `q` of gate block `s` (0 forget, 1 input, 2 candidate, 3 output) among the 4096 gate columns. -/
def gateCol (s : Fin 4) (q : Fin 1024) : Fin 4096 :=
  ⟨1024 * s.val + q.val, by have := s.isLt; have := q.isLt; omega⟩

variable {R : ℕ}

/-- The pre-activation of gate column `j` for batch row `r`. -/
def preact (x h : (⟨2, ![R, 1024]⟩ : Shape).Idx → EReal) (W U : (⟨2, ![1024, 4096]⟩ : Shape).Idx → EReal)
    (b : Fin 4096 → EReal) (r : Fin R) (j : Fin 4096) : EReal :=
  ((∑ k : Fin 1024, x (ix2 r k) * W (ix2 k j)) + ∑ k : Fin 1024, h (ix2 r k) * U (ix2 k j)) + b j

/-- The new hidden state at batch row `r`, hidden column `q`. -/
def cell (x h c : (⟨2, ![R, 1024]⟩ : Shape).Idx → EReal) (W U : (⟨2, ![1024, 4096]⟩ : Shape).Idx → EReal)
    (b : Fin 4096 → EReal) (r : Fin R) (q : Fin 1024) : EReal :=
  Ideal.logistic (preact x h W U b r (gateCol 3 q))
    * Ideal.tanh (Ideal.logistic (preact x h W U b r (gateCol 0 q)) * c (ix2 r q)
        + Ideal.logistic (preact x h W U b r (gateCol 1 q)) * Ideal.tanh (preact x h W U b r (gateCol 2 q)))

/-- The whole array of new hidden states. -/
def cells (x h c : (⟨2, ![R, 1024]⟩ : Shape).Idx → EReal) (W U : (⟨2, ![1024, 4096]⟩ : Shape).Idx → EReal)
    (b : Fin 4096 → EReal) : (⟨2, ![R, 1024]⟩ : Shape).Idx → EReal :=
  fun i => cell x h c W U b ⟨(i 0).val, idx2_lt0 i⟩ ⟨(i 1).val, idx2_lt1 i⟩

theorem cells_ix2 (x h c : (⟨2, ![R, 1024]⟩ : Shape).Idx → EReal) (W U : (⟨2, ![1024, 4096]⟩ : Shape).Idx → EReal)
    (b : Fin 4096 → EReal) (r : Fin R) (q : Fin 1024) : cells x h c W U b (ix2 r q) = cell x h c W U b r q := rfl

/-- A row of a block is a row of the whole array: if the block's rows of x, h and c are rows `o + p` of
    the arrays, the cell of the block at row `p` is the cell of the arrays at row `o + p`. -/
theorem cell_of_rows {R' : ℕ} (x h c : (⟨2, ![R, 1024]⟩ : Shape).Idx → EReal)
    (x' h' c' : (⟨2, ![R', 1024]⟩ : Shape).Idx → EReal) (W U : (⟨2, ![1024, 4096]⟩ : Shape).Idx → EReal)
    (b : Fin 4096 → EReal) (p : Fin R') (r : Fin R)
    (hx : ∀ k, x' (ix2 p k) = x (ix2 r k)) (hh : ∀ k, h' (ix2 p k) = h (ix2 r k)) (hc : ∀ k, c' (ix2 p k) = c (ix2 r k))
    (q : Fin 1024) : cell x' h' c' W U b p q = cell x h c W U b r q := by
  simp only [cell, preact, hx, hh, hc]

end Cert.Lstm

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.KIPayload.lean ====
/-
  The kernel body's stored value, read at an entry, at the ideal values.

  On one block the body forms the 128 x 4096 array of gate pre-activations

      z(p, j) = (sum_k x(p, k) W(k, j) + sum_k h(p, k) U(k, j)) + b(0, j)

  (two products into zero accumulators — exact sums at the ideal values, and the change of float format of
  x and h before them is the identity there —, their sum, and the bias row added to every row), takes its
  four blocks of 1024 columns through the logistic function or the hyperbolic tangent, and combines them
  with the block of c: at entry (p, q) the stored value is the LSTM cell of the block's 128 rows.
-/
import proofs.«125916_j33526514712649_1_alg».proof.Proof.Gen.KernelIdeal.Skeleton
import proofs.«125916_j33526514712649_1_alg».proof.Proof.LstmSpec
import proofs.«125916_j33526514712649_1_alg».proof.Proof.LibDot
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.Lstm
open Idealize.ShloMosaic Idealize.ShloMosaic.ValueIdx

/-- The printed dimension record of the two products is the plain "rows by columns" one. -/
theorem dot_plain : dot_S128x1024_S1024x4096_S128x4096_1_0_0_1_n_n = DotDims.plain 128 1024 4096 := rfl

/-- A product of a 128 x 1024 block with a 1024 x 4096 matrix into the zero accumulator, at entry (p, j). -/
theorem prod_apply {φ₁ φ₂ : FTy} (a : FVec Ideal S128x1024 φ₁) (B : FVec Ideal S1024x4096 φ₂) (p : Fin 128) (j : Fin 4096) :
    matmul dot_S128x1024_S1024x4096_S128x4096_1_0_0_1_n_n none a B (constant S128x4096 .f32 0x00000000#32) (ix2 p j)
      = ∑ k : Fin 1024, a (ix2 p k) * B (ix2 k j) := by
  rw [dot_plain]
  exact Cert.GNN.matmul_plain_zero_apply none a B p j

/-- The bias row broadcast over the 128 rows, at entry (p, j). -/
theorem bias_apply (b : FVec Ideal S1x4096 .f32) (p : Fin 128) (j : Fin 4096) :
    broadcastTo S128x4096 b broadcasts_S1x4096_S128x4096 (ix2 p j) = b (ix2 (0 : Fin 1) j) :=
  broadcastTo_apply b broadcasts_S1x4096_S128x4096 (ix2 p j) (ix2 (0 : Fin 1) j) (fun a => match a with
    | ⟨0, _⟩ => by show 0 = if (1 : Nat) = 1 then 0 else _; rw [if_pos rfl]
    | ⟨1, _⟩ => by show j.val = if (4096 : Nat) = 1 then 0 else j.val; rw [if_neg (by decide)])

/-- The array of gate pre-activations the body forms from its loads. -/
def zvec (x h : FVec Ideal S128x1024 .f32) (W U : FVec Ideal S1024x4096 .bf16) (b : FVec Ideal S1x4096 .f32) : FVec Ideal S128x4096 .f32 :=
  addf (addf
      (matmul dot_S128x1024_S1024x4096_S128x4096_1_0_0_1_n_n none (truncf .bf16 x bitsLt_bf16_f32)
        (shapeCast S1024x4096 W shapeCasts_S1024x4096_S1024x4096) (constant S128x4096 .f32 0x00000000#32))
      (matmul dot_S128x1024_S1024x4096_S128x4096_1_0_0_1_n_n none (truncf .bf16 h bitsLt_bf16_f32)
        (shapeCast S1024x4096 U shapeCasts_S1024x4096_S1024x4096) (constant S128x4096 .f32 0x00000000#32)))
    (broadcastTo S128x4096 (shapeCast S1x4096 b shapeCasts_S1x4096_S1x4096) broadcasts_S1x4096_S128x4096)

/-- At entry (p, j) it is the cell's pre-activation of the block's row p. -/
theorem zvec_apply (x h : FVec Ideal S128x1024 .f32) (W U : FVec Ideal S1024x4096 .bf16) (b : FVec Ideal S1x4096 .f32)
    (p : Fin 128) (j : Fin 4096) :
    zvec x h W U b (ix2 p j) = preact (R := 128) x h W U (fun j => b (ix2 (0 : Fin 1) j)) p j := by
  unfold zvec preact
  rw [addf_apply, addf_apply, shapeCast_self, shapeCast_self, shapeCast_self, prod_apply, prod_apply, bias_apply]
  rfl

/-- The block of 1024 columns of gate `s`, at entry (p, q). -/
theorem slice0_apply (z : FVec Ideal S128x4096 .f32) (p : Fin 128) (q : Fin 1024) :
    extractStridedSlice S128x1024 ![0, 0] z slices_S128x4096_o0_0_S128x1024 (ix2 p q) = z (ix2 p (gateCol 0 q)) :=
  extractStridedSlice_apply ![0, 0] z slices_S128x4096_o0_0_S128x1024 (ix2 p q) (ix2 p (gateCol 0 q)) (fun a => match a with
    | ⟨0, _⟩ => by show p.val = 0 + p.val; omega
    | ⟨1, _⟩ => by show 1024 * 0 + q.val = 0 + q.val; omega)
theorem slice1_apply (z : FVec Ideal S128x4096 .f32) (p : Fin 128) (q : Fin 1024) :
    extractStridedSlice S128x1024 ![0, 1024] z slices_S128x4096_o0_1024_S128x1024 (ix2 p q) = z (ix2 p (gateCol 1 q)) :=
  extractStridedSlice_apply ![0, 1024] z slices_S128x4096_o0_1024_S128x1024 (ix2 p q) (ix2 p (gateCol 1 q)) (fun a => match a with
    | ⟨0, _⟩ => by show p.val = 0 + p.val; omega
    | ⟨1, _⟩ => by show 1024 * 1 + q.val = 1024 + q.val; omega)
theorem slice2_apply (z : FVec Ideal S128x4096 .f32) (p : Fin 128) (q : Fin 1024) :
    extractStridedSlice S128x1024 ![0, 2048] z slices_S128x4096_o0_2048_S128x1024 (ix2 p q) = z (ix2 p (gateCol 2 q)) :=
  extractStridedSlice_apply ![0, 2048] z slices_S128x4096_o0_2048_S128x1024 (ix2 p q) (ix2 p (gateCol 2 q)) (fun a => match a with
    | ⟨0, _⟩ => by show p.val = 0 + p.val; omega
    | ⟨1, _⟩ => by show 1024 * 2 + q.val = 2048 + q.val; omega)
theorem slice3_apply (z : FVec Ideal S128x4096 .f32) (p : Fin 128) (q : Fin 1024) :
    extractStridedSlice S128x1024 ![0, 3072] z slices_S128x4096_o0_3072_S128x1024 (ix2 p q) = z (ix2 p (gateCol 3 q)) :=
  extractStridedSlice_apply ![0, 3072] z slices_S128x4096_o0_3072_S128x1024 (ix2 p q) (ix2 p (gateCol 3 q)) (fun a => match a with
    | ⟨0, _⟩ => by show p.val = 0 + p.val; omega
    | ⟨1, _⟩ => by show 1024 * 3 + q.val = 3072 + q.val; omega)

/-- The body's stored value is the gates' combination of `zvec`. -/
theorem pay_eq (x h cc : Vec Ideal S128x1024 .f32) (W U : Vec Ideal S1024x4096 .bf16) (b : Vec Ideal S1x4096 .f32) :
    k0_pay1 x h W U b cc
      = mulf (logistic (extractStridedSlice S128x1024 ![0, 3072] (zvec x h W U b) slices_S128x4096_o0_3072_S128x1024))
          (tanh (addf
            (mulf (logistic (extractStridedSlice S128x1024 ![0, 0] (zvec x h W U b) slices_S128x4096_o0_0_S128x1024)) cc)
            (mulf (logistic (extractStridedSlice S128x1024 ![0, 1024] (zvec x h W U b) slices_S128x4096_o0_1024_S128x1024))
              (tanh (extractStridedSlice S128x1024 ![0, 2048] (zvec x h W U b) slices_S128x4096_o0_2048_S128x1024))))) := rfl

/-- THE STORED VALUE AT AN ENTRY: the LSTM cell of the block's rows. -/
theorem pay_apply (x h cc : Vec Ideal S128x1024 .f32) (W U : Vec Ideal S1024x4096 .bf16) (b : Vec Ideal S1x4096 .f32)
    (p : Fin 128) (q : Fin 1024) :
    k0_pay1 x h W U b cc (ix2 p q) = cell (R := 128) x h cc W U (fun j => b (ix2 (0 : Fin 1) j)) p q := by
  rw [pay_eq]
  show Ideal.logistic (extractStridedSlice S128x1024 ![0, 3072] (zvec x h W U b) slices_S128x4096_o0_3072_S128x1024 (ix2 p q))
      * Ideal.tanh (Ideal.logistic (extractStridedSlice S128x1024 ![0, 0] (zvec x h W U b) slices_S128x4096_o0_0_S128x1024 (ix2 p q)) * cc (ix2 p q)
        + Ideal.logistic (extractStridedSlice S128x1024 ![0, 1024] (zvec x h W U b) slices_S128x4096_o0_1024_S128x1024 (ix2 p q))
          * Ideal.tanh (extractStridedSlice S128x1024 ![0, 2048] (zvec x h W U b) slices_S128x4096_o0_2048_S128x1024 (ix2 p q))) = _
  rw [slice0_apply, slice1_apply, slice2_apply, slice3_apply, zvec_apply, zvec_apply, zvec_apply, zvec_apply]
  rfl

end Cert.KernelIdeal.Val

end
-- ==== Proof.KIValue.lean ====
/-
  What the fused LSTM-cell program leaves in its result array, at the ideal values.

  The host prefix hands the region W = [W_f | W_i | W_c | W_o], U = [U_f | U_i | U_c | U_o] (their change
  of float format is the identity at the ideal values) and the bias b = [b_f, b_i, b_c, b_o] laid out as
  one row. Grid point t is handed rows 128 t .. 128 t + 127 of x, h and c and the whole of W, U and b, and
  writes back, to rows 128 t .. 128 t + 127 of the result, the LSTM cell of those rows: a row of a block is
  a row of the whole array, so what point t writes back is block t of the array of LSTM cells of the whole
  arguments. The 32 blocks tile the result, so the result ends as that array.
-/
import proofs.«125916_j33526514712649_1_alg».proof.Proof.KIRun
import proofs.«125916_j33526514712649_1_alg».proof.Proof.KIPayload
import Idealize.ShloMosaic.Lib.StableHlo.Run
import Idealize.ShloMosaic.Lib.Pipeline.Value

set_option maxRecDepth 16384

noncomputable section

namespace Cert.KernelIdeal.Val

open Cert.KernelIdeal Cert.KernelIdeal.Gen Cert.KernelIdeal.Fr Cert.Lstm
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-! ## The operands the host prefix builds -/

/-- W = [W_f | W_i | W_c | W_o]. -/
def Wcat (c : Dev nD) : FVec Ideal S1024x4096 .f32 :=
  concatenate S1024x4096 1 [⟨S1024x1024, m ((c : Thread nD τ).loc main_arg3)⟩, ⟨S1024x1024, m ((c : Thread nD τ).loc main_arg4)⟩,
    ⟨S1024x1024, m ((c : Thread nD τ).loc main_arg5)⟩, ⟨S1024x1024, m ((c : Thread nD τ).loc main_arg6)⟩]
    concatenates_S1024x1024_S1024x1024_S1024x1024_S1024x1024_S1024x4096_d1

/-- U = [U_f | U_i | U_c | U_o]. -/
def Ucat (c : Dev nD) : FVec Ideal S1024x4096 .f32 :=
  concatenate S1024x4096 1 [⟨S1024x1024, m ((c : Thread nD τ).loc main_arg7)⟩, ⟨S1024x1024, m ((c : Thread nD τ).loc main_arg8)⟩,
    ⟨S1024x1024, m ((c : Thread nD τ).loc main_arg9)⟩, ⟨S1024x1024, m ((c : Thread nD τ).loc main_arg10)⟩]
    concatenates_S1024x1024_S1024x1024_S1024x1024_S1024x1024_S1024x4096_d1

/-- b = [b_f, b_i, b_c, b_o]. -/
def bcat (c : Dev nD) : FVec Ideal S4096 .f32 :=
  concatenate S4096 0 [⟨S1024, m ((c : Thread nD τ).loc main_arg11)⟩, ⟨S1024, m ((c : Thread nD τ).loc main_arg12)⟩,
    ⟨S1024, m ((c : Thread nD τ).loc main_arg13)⟩, ⟨S1024, m ((c : Thread nD τ).loc main_arg14)⟩]
    concatenates_S1024_S1024_S1024_S1024_S4096_d0

/-- The bias as a function of the gate column. -/
def brow (c : Dev nD) : Fin 4096 → EReal := fun j => bcat m c (ix1 j)

theorem V_W (c : Dev nD) : (V m c main_v1 : FVec Ideal S1024x4096 .bf16) = truncf .bf16 (Wcat m c) bitsLt_bf16_f32 := by
  dsimp only [V]
  simp only [hostOps0, List.flatten_cons, List.flatten_nil, List.append_nil, List.cons_append, List.nil_append]
  after_results
  rfl

theorem V_U (c : Dev nD) : (V m c main_v3 : FVec Ideal S1024x4096 .bf16) = truncf .bf16 (Ucat m c) bitsLt_bf16_f32 := by
  dsimp only [V]
  simp only [hostOps0, List.flatten_cons, List.flatten_nil, List.append_nil, List.cons_append, List.nil_append]
  after_results
  rfl

theorem V_b (c : Dev nD) : (V m c main_v5 : FVec Ideal S1x4096 .f32) = shapeCast S1x4096 (bcat m c) shapeCasts_S4096_S1x4096 := by
  dsimp only [V]
  simp only [hostOps0, List.flatten_cons, List.flatten_nil, List.append_nil, List.cons_append, List.nil_append]
  after_results
  rfl

/-- The bias row at column j is the bias at j: the reshape keeps the row-major order. -/
theorem V_b_apply (c : Dev nD) (j : Fin 4096) : (V m c main_v5 : FVec Ideal S1x4096 .f32) (ix2 (0 : Fin 1) j) = brow m c j := by
  rw [V_b]
  exact shapeCast_apply (bcat m c) shapeCasts_S4096_S1x4096 (ix2 (0 : Fin 1) j) (ix1 j) (by
    rw [Shape.rowMajor_val_one, Shape.rowMajor_val_two]
    show j.val = 0 * 4096 + j.val
    omega)

/-! ## The windows' blocks -/

theorem hz : (![0, 0] : Fin 2 → Nat) = fun _ => 0 := funext fun a => by fin_cases a <;> rfl

/-- The printed index maps over the 32 grid points: windows 0, 1, 2 and 6 are at block row t, column 0;
    windows 3, 4, 5 at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `128 t + p` of the 4096. -/
def rowOf (t : Fin cfg0.N) (p : Fin 128) : Fin 4096 :=
  ⟨128 * t.val + p.val, by have h : t.val < 32 := t.isLt; have := p.isLt; omega⟩

/-- The block of x at point t is rows 128 t .. of x. -/
theorem blk_x (c : Dev nD) (t : Fin cfg0.N) (p : Fin 128) (k : Fin 1024) :
    (iblk m c 0 t : FVec Ideal S128x1024 .f32) (ix2 p k) = m ((c : Thread nD τ).loc main_arg0) (ix2 (rowOf t p) k) := by
  show V m c main_arg0 (((cfg0.win 0).blk t).view.emb (ix2 p k)) = _
  rw [V_of_unwritten m c main_arg0 (by decide)]
  obtain ⟨e0, e1, -⟩ := idx_facts t
  refine congrArg _ (funext fun a => Fin.ext ?_)
  match a with
  | ⟨0, _⟩ => show win0_0.index t (0 : Fin 2) * 128 + 1 * p.val = 128 * t.val + p.val; omega
  | ⟨1, _⟩ => show win0_0.index t (1 : Fin 2) * 1024 + 1 * k.val = k.val; omega

theorem blk_h (c : Dev nD) (t : Fin cfg0.N) (p : Fin 128) (k : Fin 1024) :
    (iblk m c 1 t : FVec Ideal S128x1024 .f32) (ix2 p k) = m ((c : Thread nD τ).loc main_arg1) (ix2 (rowOf t p) k) := by
  show V m c main_arg1 (((cfg0.win 1).blk t).view.emb (ix2 p k)) = _
  rw [V_of_unwritten m c main_arg1 (by decide)]
  obtain ⟨-, -, e0, e1, -⟩ := idx_facts t
  refine congrArg _ (funext fun a => Fin.ext ?_)
  match a with
  | ⟨0, _⟩ => show win0_1.index t (0 : Fin 2) * 128 + 1 * p.val = 128 * t.val + p.val; omega
  | ⟨1, _⟩ => show win0_1.index t (1 : Fin 2) * 1024 + 1 * k.val = k.val; omega

theorem blk_c (c : Dev nD) (t : Fin cfg0.N) (p : Fin 128) (k : Fin 1024) :
    (iblk m c 2 t : FVec Ideal S128x1024 .f32) (ix2 p k) = m ((c : Thread nD τ).loc main_arg2) (ix2 (rowOf t p) k) := by
  show V m c main_arg2 (((cfg0.win 2).blk t).view.emb (ix2 p k)) = _
  rw [V_of_unwritten m c main_arg2 (by decide)]
  obtain ⟨-, -, -, -, e0, e1, -⟩ := idx_facts t
  refine congrArg _ (funext fun a => Fin.ext ?_)
  match a with
  | ⟨0, _⟩ => show win0_2.index t (0 : Fin 2) * 128 + 1 * p.val = 128 * t.val + p.val; omega
  | ⟨1, _⟩ => show win0_2.index t (1 : Fin 2) * 1024 + 1 * k.val = k.val; omega

/-- The block of W at every point is the whole of W. -/
theorem blk_W (c : Dev nD) (t : Fin cfg0.N) : (iblk m c 3 t : FVec Ideal S1024x4096 .bf16) = Wcat m c := by
  funext y
  show (V m c main_v1 : FVec Ideal S1024x4096 .bf16) (((cfg0.win 3).blk t).view.emb y) = _
  rw [V_W]
  obtain ⟨-, -, -, -, -, -, e0, e1, -⟩ := idx_facts t
  show Wcat m c (((cfg0.win 3).blk t).view.emb y) = _
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 4096 + 1 * (y 1).val = (y 1).val; omega

theorem blk_U (c : Dev nD) (t : Fin cfg0.N) : (iblk m c 4 t : FVec Ideal S1024x4096 .bf16) = Ucat m c := by
  funext y
  show (V m c main_v3 : FVec Ideal S1024x4096 .bf16) (((cfg0.win 4).blk t).view.emb y) = _
  rw [V_U]
  obtain ⟨-, -, -, -, -, -, -, -, e0, e1, -⟩ := idx_facts t
  show Ucat m c (((cfg0.win 4).blk t).view.emb y) = _
  refine congrArg _ (funext fun a => Fin.ext ?_)
  match a with
  | ⟨0, _⟩ => show win0_4.index t (0 : Fin 2) * 1024 + 1 * (y 0).val = (y 0).val; omega
  | ⟨1, _⟩ => show win0_4.index t (1 : Fin 2) * 4096 + 1 * (y 1).val = (y 1).val; omega

/-- The block of the bias row at every point is the whole row. -/
theorem blk_b (c : Dev nD) (t : Fin cfg0.N) (j : Fin 4096) :
    (iblk m c 5 t : FVec Ideal S1x4096 .f32) (ix2 (0 : Fin 1) j) = brow m c j := by
  rw [← V_b_apply]
  show (V m c main_v5 : FVec Ideal S1x4096 .f32) (((cfg0.win 5).blk t).view.emb (ix2 (0 : Fin 1) j)) = _
  obtain ⟨-, -, -, -, -, -, -, -, -, -, e0, e1, -⟩ := idx_facts t
  refine congrArg _ (funext fun a => Fin.ext ?_)
  match a with
  | ⟨0, _⟩ => show win0_5.index t (0 : Fin 2) * 1 + 1 * 0 = 0; omega
  | ⟨1, _⟩ => show win0_5.index t (1 : Fin 2) * 4096 + 1 * j.val = j.val; omega

/-! ## The result array -/

/-- The array of LSTM cells of the launch arguments. -/
def G (c : Dev nD) : FVec Ideal S4096x1024 .f32 :=
  cells (R := 4096) (m ((c : Thread nD τ).loc main_arg0)) (m ((c : Thread nD τ).loc main_arg1)) (m ((c : Thread nD τ).loc main_arg2))
    (Wcat m c) (Ucat m c) (brow m c)

/-- WHAT POINT t WRITES BACK is block t of `G`. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after_out]
  unfold outAt outBlk
  rw [View.canon_unit_zero hz]
  simp only [View.ld_unit_zero (S := S128x1024) hz, View.ld_unit_zero (S := S1024x4096) hz, View.ld_unit_zero (S := S1x4096) hz]
  funext j
  obtain ⟨p, q, rfl⟩ : ∃ (p : Fin 128) (q : Fin 1024), j = ix2 p q := ⟨j 0, j 1, eq_ix2 j⟩
  show k0_pay1 (iblk m c 0 t) (iblk m c 1 t) (iblk m c 3 t) (iblk m c 4 t) (iblk m c 5 t) (iblk m c 2 t) (ix2 p q)
    = G m c (((cfg0.win 6).blk t).view.emb (ix2 p q))
  refine (pay_apply (iblk m c 0 t) (iblk m c 1 t) (iblk m c 2 t) (iblk m c 3 t) (iblk m c 4 t) (iblk m c 5 t) p q).trans ?_
  have hemb : ((cfg0.win 6).blk t).view.emb (ix2 p q) = ix2 (rowOf t p) q := by
    obtain ⟨-, -, -, -, -, -, -, -, -, -, -, -, e0, e1⟩ := idx_facts t
    refine funext fun a => Fin.ext ?_
    match a with
    | ⟨0, _⟩ => show win0_6.index t (0 : Fin 2) * 128 + 1 * p.val = 128 * t.val + p.val; omega
    | ⟨1, _⟩ => show win0_6.index t (1 : Fin 2) * 1024 + 1 * q.val = q.val; omega
  rw [hemb]
  unfold G
  rw [cells_ix2, blk_W, blk_U]
  have hb : (fun j => (iblk m c 5 t : FVec Ideal S1x4096 .f32) (ix2 (0 : Fin 1) j)) = brow m c := funext fun j => blk_b m c t j
  rw [hb]
  exact cell_of_rows _ _ _ _ _ _ _ _ _ p (rowOf t p) (blk_x m c t p) (blk_h m c t p) (blk_c m c t p) q

/-- An index of the result is in point t's block iff each coordinate is in the block's range. -/
theorem mem_blk (t : Fin cfg0.N) (i : S4096x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v6).slice (win0_6.rect t)).set ↔ _
  rw [View.set_slice_whole, Rect.mem_set_unit]
  exact Iff.rfl

/-- Every index of the result is in the block of the point its row belongs to. -/
theorem covered (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  let t : Fin cfg0.N := ⟨(i 0).val / 128, by show (i 0).val / 128 < 32; omega⟩
  refine ⟨t, flush0_6 t, ?_⟩
  obtain ⟨-, -, -, -, -, -, -, -, -, -, -, -, e0, e1⟩ := idx_facts t
  have ht : t.val = (i 0).val / 128 := rfl
  rw [mem_blk]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 1024 ≤ (i 1).val ∧ (i 1).val < win0_6.index t (1 : Fin 2) * 1024 + 1024; omega

/-- THE RESULT ARRAY after the run is `G`. -/
theorem final (c : Dev nD) : (dats m 0 c).arrAt 6 cfg0.N = G m c :=
  (dats m 0 c).arrAt_eq_of_cover 6 (G m c) (fun t _ => flushed_eq m c t) covered

/-! ## The run, read -/

/-- The run with the result array at `G` of the launch arguments, the arguments unchanged. -/
theorem run : θ_run defs (onTc (τ := τ) (main (F := Ideal))) ⟨m, fun _ => 0, ρ⟩ fun r => ∀ c : Dev nD,
      r.2.mem ((c.tc : Thread nD τ).loc main_v6) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c =>
    have rest := fun (b : Ref sig .tc) (hrest : b ∈ Pipeline.restRefs sig (cfgs 0).spec)
        (hb : b ≠ main_v0 ∧ b ≠ main_v1 ∧ b ≠ main_v2 ∧ b ≠ main_v3 ∧ b ≠ main_v4 ∧ b ≠ main_v5) =>
      unstaged_kept m (dats m) h c b hrest hb
    ⟨((h c).1 6).trans (final m c),
     ((h c).1 0).trans (staged_kept m (dats m) (A_eq m) c 0 rfl (by decide)),
     ((h c).1 1).trans (staged_kept m (dats m) (A_eq m) c 1 rfl (by decide)),
     ((h c).1 2).trans (staged_kept m (dats m) (A_eq m) c 2 rfl (by decide)),
     rest main_arg3 (Pipeline.mem_restRefs_of main_arg3 (by decide) (by decide)) (by decide),
     rest main_arg4 (Pipeline.mem_restRefs_of main_arg4 (by decide) (by decide)) (by decide),
     rest main_arg5 (Pipeline.mem_restRefs_of main_arg5 (by decide) (by decide)) (by decide),
     rest main_arg6 (Pipeline.mem_restRefs_of main_arg6 (by decide) (by decide)) (by decide),
     rest main_arg7 (Pipeline.mem_restRefs_of main_arg7 (by decide) (by decide)) (by decide),
     rest main_arg8 (Pipeline.mem_restRefs_of main_arg8 (by decide) (by decide)) (by decide),
     rest main_arg9 (Pipeline.mem_restRefs_of main_arg9 (by decide) (by decide)) (by decide),
     rest main_arg10 (Pipeline.mem_restRefs_of main_arg10 (by decide) (by decide)) (by decide),
     rest main_arg11 (Pipeline.mem_restRefs_of main_arg11 (by decide) (by decide)) (by decide),
     rest main_arg12 (Pipeline.mem_restRefs_of main_arg12 (by decide) (by decide)) (by decide),
     rest main_arg13 (Pipeline.mem_restRefs_of main_arg13 (by decide) (by decide)) (by decide),
     rest main_arg14 (Pipeline.mem_restRefs_of main_arg14 (by decide) (by decide)) (by decide)⟩)
    (run_main m ρ)

end Cert.KernelIdeal.Val

end
-- ==== Proof.RefIsSpec.lean ====
/-
  The reference's result, at the ideal values, is the LSTM cell of the whole arrays.

  The reference concatenates the four gate weight matrices into W and U and the four biases into b, forms
  the 4096 x 4096 array of gate pre-activations x W + h U + b (two host products, exact sums at the ideal
  values, and the bias broadcast over the rows), cuts it into its four blocks of 1024 columns, and applies
  the gates: the logistic function written out as 1 / (1 + e^(-z)), which at the ideal values is the
  logistic function itself, and the hyperbolic tangent. Entry by entry that is `Cert.Lstm.cell`.
-/
import proofs.«125916_j33526514712649_1_alg».proof.Proof.Gen.ReferenceIdeal.Read
import proofs.«125916_j33526514712649_1_alg».proof.Proof.LstmSpec
import Idealize.ShloMosaic.Lib.IdealHost

noncomputable section

namespace Cert.ReferenceIdeal.RefValue

open Cert.ReferenceIdeal Cert.ReferenceIdeal.Read Cert.Lstm
open Idealize.ShloMosaic Idealize.ShloMosaic.ValueIdx

variable (x0 x1 x2 : (⟨S4096x1024, .f32⟩ : BufTy).Contents (Elt Ideal))
  (x3 x4 x5 x6 x7 x8 x9 x10 : (⟨S1024x1024, .f32⟩ : BufTy).Contents (Elt Ideal))
  (x11 x12 x13 x14 : (⟨S1024, .f32⟩ : BufTy).Contents (Elt Ideal))

/-- The concatenated bias, as a function of the gate column. -/
def biasRow : Fin 4096 → EReal := fun j => val_main_v2 (F := Ideal) x11 x12 x13 x14 (ix1 j)

/-- The reference's array of gate pre-activations at entry (r, j). -/
theorem gates_apply (r : Fin 4096) (j : Fin 4096) :
    val_main_v8 (F := Ideal) x0 x1 x3 x4 x5 x6 x7 x8 x9 x10 x11 x12 x13 x14 (ix2 r j)
      = preact (R := 4096) x0 x1 (val_main_v0 (F := Ideal) x3 x4 x5 x6) (val_main_v1 (F := Ideal) x7 x8 x9 x10)
          (biasRow x11 x12 x13 x14) r j := by
  rw [val_main_v8_apply, val_main_v5_apply, val_main_v3_apply, val_main_v4_apply, val_main_v7_apply, val_main_v6_apply]
  have el3 : ∀ k, lidx_main_v3 (ix2 r j) k = ix2 r k := fun k => funext fun a => by
    match a with | ⟨0, _⟩ => rfl | ⟨1, _⟩ => rfl
  have er3 : ∀ k, ridx_main_v3 (ix2 r j) k = ix2 k j := fun k => funext fun a => by
    match a with | ⟨0, _⟩ => rfl | ⟨1, _⟩ => rfl
  have el4 : ∀ k, lidx_main_v4 (ix2 r j) k = ix2 r k := fun k => funext fun a => by
    match a with | ⟨0, _⟩ => rfl | ⟨1, _⟩ => rfl
  have er4 : ∀ k, ridx_main_v4 (ix2 r j) k = ix2 k j := fun k => funext fun a => by
    match a with | ⟨0, _⟩ => rfl | ⟨1, _⟩ => rfl
  have eb : idx_main_v6 (idx_main_v7 (ix2 r j)) = ix1 j := funext fun a => by
    match a with | ⟨0, _⟩ => rfl
  simp only [el3, er3, el4, er4, eb]
  rfl

/-- Column q of each block of 1024 gate columns, as the reference's slices index it. -/
theorem col0 (r : Fin 4096) (q : Fin 1024) : idx_main_v9 (ix2 r q) = ix2 r (gateCol 0 q) := funext fun a => Fin.ext (by
  match a with
  | ⟨0, _⟩ => rfl
  | ⟨1, _⟩ => show q.val = 1024 * 0 + q.val; omega)
theorem col1 (r : Fin 4096) (q : Fin 1024) : idx_main_v16 (ix2 r q) = ix2 r (gateCol 1 q) := funext fun a => Fin.ext (by
  match a with
  | ⟨0, _⟩ => rfl
  | ⟨1, _⟩ => show 1024 + q.val = 1024 * 1 + q.val; omega)
theorem col2 (r : Fin 4096) (q : Fin 1024) : idx_main_v23 (ix2 r q) = ix2 r (gateCol 2 q) := funext fun a => Fin.ext (by
  match a with
  | ⟨0, _⟩ => rfl
  | ⟨1, _⟩ => show 2048 + q.val = 1024 * 2 + q.val; omega)
theorem col3 (r : Fin 4096) (q : Fin 1024) : idx_main_v25 (ix2 r q) = ix2 r (gateCol 3 q) := funext fun a => Fin.ext (by
  match a with
  | ⟨0, _⟩ => rfl
  | ⟨1, _⟩ => show 3072 + q.val = 1024 * 3 + q.val; omega)

/-- THE REFERENCE'S RESULT is the array of LSTM cells of its arguments. -/
theorem result_eq :
    val_main_v36 (F := Ideal) x0 x1 x2 x3 x4 x5 x6 x7 x8 x9 x10 x11 x12 x13 x14
      = cells (R := 4096) x0 x1 x2 (val_main_v0 (F := Ideal) x3 x4 x5 x6) (val_main_v1 (F := Ideal) x7 x8 x9 x10)
          (biasRow x11 x12 x13 x14) := by
  funext i
  obtain ⟨r, q, rfl⟩ : ∃ (r : Fin 4096) (q : Fin 1024), i = ix2 r q := ⟨i 0, i 1, eq_ix2 i⟩
  rw [cells_ix2]
  simp only [val_main_v36_apply, val_main_v35_apply, val_main_v34_apply, val_main_v33_apply, val_main_v32_apply,
    val_main_v31_apply, val_main_v30_apply, val_main_v29_apply, val_main_v28_apply, val_main_v27_apply, val_main_v26_apply,
    val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, val_main_v12_apply, val_main_v11_apply, val_main_v10_apply, val_main_v9_apply,
    val_main_cst_apply, val_main_cst_0_apply, val_main_cst_1_apply, val_main_cst_2_apply, val_main_cst_3_apply, val_main_cst_4_apply,
    col0, col1, col2, col3, gates_apply,
    Ideal.mulf_def, Ideal.addf_def, Ideal.hostDivf_def, Ideal.hostUnary_exp_def, Ideal.hostUnary_tanh_def,
    Ideal.hostNegf_def, Ideal.negf_def, Ideal.ofBits_def, Ideal.ofBits_one_f32]
  rfl

end Cert.ReferenceIdeal.RefValue

end
-- ==== Proof.lean ====
/-
  The fused LSTM-cell kernel against its reference.

  Both programs compute, for every batch row r and hidden column q,

      out(r, q) = sigma(z(r, 3072 + q)) * tanh( sigma(z(r, q)) * c(r, q) + sigma(z(r, 1024 + q)) * tanh(z(r, 2048 + q)) ),
      z(r, j)   = (sum_k x(r, k) W(k, j) + sum_k h(r, k) U(k, j)) + b(j),

  with W, U and b the column-wise concatenations of the four gates' weights and biases.

  The kernel does so 128 rows at a time over 32 grid points, with W and U passed through a narrower float
  format (the identity at the ideal values) and the two products taken into zero accumulators (exact sums
  at the ideal values); the reference does so for all 4096 rows at once with host products, and writes the
  logistic function sigma out as 1 / (1 + e^(-z)), which at the ideal values is the logistic function. Sums,
  products and gates are applied in the same order on both sides, so no law of the extended reals beyond
  these readings is needed, and the finiteness of the inputs is never used.

  The three frames: each program terminates without a fault and leaves its fifteen argument arrays as
  launched (the kernel's host prefix writes only its own six result buffers, its windows only read the
  arguments they stage; the reference is a straight line of host operations).
-/
import proofs.«125916_j33526514712649_1_alg».proof.Defs
import proofs.«125916_j33526514712649_1_alg».proof.Proof.Gen.Kernel
import proofs.«125916_j33526514712649_1_alg».proof.Proof.Gen.KernelIdeal
import proofs.«125916_j33526514712649_1_alg».proof.Proof.Gen.ReferenceIdeal
import proofs.«125916_j33526514712649_1_alg».proof.Proof.Gen.Pre_finite_inputs
import proofs.«125916_j33526514712649_1_alg».proof.Proof.KRun
import proofs.«125916_j33526514712649_1_alg».proof.Proof.KIValue
import proofs.«125916_j33526514712649_1_alg».proof.Proof.RefIsSpec
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Fr.frame m ρ

/-- So does the kernel read at the ideal values. -/
theorem frame_kernelIdeal : Cert.frame_KernelIdeal := fun m ρ _ => Cert.KernelIdeal.Fr.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the array of LSTM cells of those
    arguments: the kernel's result array is `Cert.KernelIdeal.Val.G`, the reference's result term is
    `Cert.Lstm.cells` of its own arguments, and the two concatenations W, U, b are the same terms. -/
theorem algebraic : Cert.algebraic_KernelIdeal_ReferenceIdeal := by
  intro m ρ m' ρ' _ hagree
  refine ⟨fun c => Cert.KernelIdeal.Val.G m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.result_eq]
  obtain ⟨h0, h1, h2, h3, h4, h5, h6, h7, h8, h9, h10, h11, h12, h13, h14⟩ := hagree c
  rw [h0, h1, h2, h3, h4, h5, h6, h7, h8, h9, h10, h11, h12, h13, h14]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
